-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8x2048x4096 .f32) (main_arg1 : FVec F S4096x4096 .f32) (main_arg2 : FVec F S4096 .f32) (main_arg3 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S16384x4096 : Shape := ⟨2, ![16384, 4096]⟩
abbrev S1x4096 : Shape := ⟨2, ![1, 4096]⟩
abbrev S512x4096 : Shape := ⟨2, ![512, 4096]⟩
abbrev S4096x512 : Shape := ⟨2, ![4096, 512]⟩
abbrev S1x512 : Shape := ⟨2, ![1, 512]⟩
abbrev S512x512 : Shape := ⟨2, ![512, 512]⟩

abbrev nBuf : Space → Nat
  | .hbm => 26
  | .vmem => 8
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .i1⟩
  | .hbm, ⟨15, _⟩ => ⟨S4096x4096, .f32⟩
  | .hbm, ⟨16, _⟩ => ⟨S4096x4096, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S4096x4096, .bf16⟩
  | .hbm, ⟨21, _⟩ => ⟨S4096x4096, .bf16⟩
  | .hbm, ⟨22, _⟩ => ⟨S16384x4096, .f32⟩
  | .hbm, ⟨23, _⟩ => ⟨S1x4096, .f32⟩
  | .hbm, ⟨24, _⟩ => ⟨S16384x4096, .f32⟩
  | .hbm, ⟨25, _⟩ => ⟨S8x2048x4096, .f32⟩
  | .local _ .vmem, ⟨0, _⟩ => ⟨S512x4096, .f32⟩
  | .local _ .vmem, ⟨1, _⟩ => ⟨S512x4096, .f32⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bitsLt_bf16_f32 : FTy.bits .bf16 < FTy.bits .f32
  transposes_S4096x4096_S4096x4096_1_0 : S4096x4096.Transposes [1, 0] S4096x4096
  shapeCasts_S8x2048x4096_S16384x4096 : S8x2048x4096.ShapeCasts S16384x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S16384x4096_S8x2048x4096 : S16384x4096.ShapeCasts S8x2048x4096
  dot_S512x4096_S4096x512_S512x512_1_0_0_1_n_n_wf : DotDims.WF S512x4096 S4096x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S16384x4096.size a
  hwx0_3 : ∀ i : grid0.Coords, EltTy.bits .f32 = 32 ∨ (Rect.block (s := S16384x4096) S512x512.size (cc0_transform_3 i) (hinb0_3 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.ofSpec (Memref.whole main_v15) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x1x4096 : Shape := ⟨3, ![1, 1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .i1⟩
  | .hbm, ⟨15, _⟩ => ⟨S4096x4096, .f32⟩
  | .hbm, ⟨16, _⟩ => ⟨S4096x4096, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S8x2048x4096, .f32⟩
  | .hbm, ⟨21, _⟩ => ⟨S1x1x4096, .f32⟩
  | .hbm, ⟨22, _⟩ => ⟨S8x2048x4096, .f32⟩
  | .hbm, ⟨23, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.Spec.lean ====
/-
  The function both programs compute, over the extended reals.

  A weight matrix `w` (one row per output channel) is first turned into a ternary matrix: with
  `θ = 0.7 · mean |w|` an entry becomes `sign w · [|w| ≥ θ]`, and row `o` is then scaled by `scale o`
  (`quantized`). The layer's output at `(b, s, o)` is the inner product of the activation row `x (b, s, ·)`
  with row `o` of that matrix, plus `bias o` (`linear`).

  The tiled program works on the activations flattened to 16384 rows and on the TRANSPOSED matrix: its
  result at `(r, o)` is `∑ k, x2 (r, k) · wt (k, o) + b2 (0, o)` (`rows`). Un-flattening the rows of that
  array gives `linear` again (`unflatten_rows`): row `r = b · 2048 + s` of the flattened activations is row
  `(b, s)` of `x`, the transposed matrix at `(k, o)` is the matrix at `(o, k)`, and the bias row at
  `(0, o)` is `bias o`. No law of arithmetic is used: the two sums have the same terms in the same order.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.TernaryLinear

open Idealize.ShloMosaic Idealize.ShloMosaic.ValueIdx

/-- Activations `[8, 2048, 4096]`, and the result. -/
abbrev SX : Shape := ⟨3, ![8, 2048, 4096]⟩
/-- The weight matrix `[4096, 4096]` (output channel, input channel), and its transpose. -/
abbrev SW : Shape := ⟨2, ![4096, 4096]⟩
/-- Per-channel vectors `[4096]`. -/
abbrev SV : Shape := ⟨1, ![4096]⟩
/-- The activations with batch and sequence flattened: `[16384, 4096]`. -/
abbrev SR : Shape := ⟨2, ![16384, 4096]⟩
/-- The bias as one row `[1, 4096]`. -/
abbrev SB : Shape := ⟨2, ![1, 4096]⟩
abbrev S0 : Shape := ⟨0, ![]⟩
abbrev SC : Shape := ⟨2, ![4096, 1]⟩

theorem sum_all : SW.ReducesTo [0, 1] S0 := by decide
theorem scalar_pos : 0 < S0.numel := by decide
theorem splat : S0.BroadcastsInDim SW (![] : Fin 0 → Fin SW.rank) := by decide
theorem column : SV.BroadcastsInDim SC (![0] : Fin 1 → Fin SC.rank) := by decide
theorem along_rows : SC.BroadcastsInDim SW (![0, 1] : Fin 2 → Fin SW.rank) := by decide

/-- The ternary matrix with its rows scaled: `sign w · [|w| ≥ 0.7 · (∑ |w|) / 2^24] · scale`, the scale of
    row `o` spread along the row. -/
def quantized (w : FVec Ideal SW .f32) (scale : FVec Ideal SV .f32) : FVec Ideal SW .f32 :=
  mulf (mulf (Host.sign w) (uitofp .f32 (cmpf .oge (Host.absf w) (broadcastInDim SW ![] splat
      (mulf (constant S0 .f32 0x3F333333#32) (Host.divf (Host.reduceAdd (Host.absf w) (constant S0 .f32 0x00000000#32) sum_all scalar_pos)
        (constant S0 .f32 0x4B800000#32)))))))
    (broadcastInDim SW ![0, 1] along_rows (broadcastInDim SC ![0] column scale))

/-- The layer: at `(b, s, o)` the inner product of activation row `(b, s)` with matrix row `o`, plus `bias o`. -/
def linear (x : SX.Idx → EReal) (w : SW.Idx → EReal) (bias : SV.Idx → EReal) : SX.Idx → EReal :=
  fun i => (∑ k : Fin 4096, x (ix3 (i 0) (i 1) k) * w (ix2 (i 2) k)) + bias (ix1 (i 2))

/-- The same over flattened rows and the transposed matrix: at `(r, o)`, `∑ k, x2 (r, k) · wt (k, o) + b2 (0, o)`. -/
def rows (x2 : SR.Idx → EReal) (wt : SW.Idx → EReal) (b2 : SB.Idx → EReal) : SR.Idx → EReal :=
  fun i => (∑ k : Fin 4096, x2 (ix2 (i 0) k) * wt (ix2 k (i 1))) + b2 (ix2 (0 : Fin 1) (i 1))

/-- Row `b · 2048 + s` of the flattened activations is row `(b, s)`. -/
theorem flat_row (x : SX.Idx → EReal) (hx : SX.ShapeCasts SR) (b : Fin 8) (s : Fin 2048) (k : Fin 4096)
    (hr : b.val * 2048 + s.val < 16384) :
    shapeCast SR x hx (ix2 (⟨b.val * 2048 + s.val, hr⟩ : Fin 16384) k) = x (ix3 b s k) :=
  shapeCast_apply x hx _ _ (by
    rw [Shape.rowMajor_val_three, Shape.rowMajor_val_two]
    rfl)

/-- Un-flattening the rows of `rows` of the flattened activations, the transposed matrix and the bias row
    is `linear`. -/
theorem unflatten_rows (x : SX.Idx → EReal) (w : SW.Idx → EReal) (bias : SV.Idx → EReal)
    (hx : SX.ShapeCasts SR) (ht : SW.Transposes [1, 0] SW) (hb : SV.ShapeCasts SB) (ho : SR.ShapeCasts SX) :
    shapeCast SX (rows (shapeCast SR x hx) (transpose SW [1, 0] w ht) (shapeCast SB bias hb)) ho = linear x w bias := by
  funext i
  obtain ⟨b, s, o, rfl⟩ : ∃ (b : Fin 8) (s : Fin 2048) (o : Fin 4096), i = ix3 b s o := ⟨i 0, i 1, i 2, eq_ix3 i⟩
  have hr : b.val * 2048 + s.val < 16384 := by have := b.isLt; have := s.isLt; omega
  rw [shapeCast_apply _ ho (ix3 b s o) (ix2 (⟨b.val * 2048 + s.val, hr⟩ : Fin 16384) o) (by
    rw [Shape.rowMajor_val_three, Shape.rowMajor_val_two]
    rfl)]
  show (∑ k : Fin 4096, shapeCast SR x hx (ix2 (⟨b.val * 2048 + s.val, hr⟩ : Fin 16384) k) * transpose SW [1, 0] w ht (ix2 k o))
      + shapeCast SB bias hb (ix2 (0 : Fin 1) o)
    = (∑ k : Fin 4096, x (ix3 b s k) * w (ix2 o k)) + bias (ix1 o)
  rw [shapeCast_a_1a_apply bias hb (0 : Fin 1) o]
  refine congrArg (· + bias (ix1 o)) (Finset.sum_congr rfl fun k _ => ?_)
  rw [flat_row x hx b s k hr, transpose_ix2_apply w ht k o]

end Cert.TernaryLinear

end
-- ==== Proof.RefValue.lean ====
/-
  The reference, read at an index: its result at `(b, s, o)` is the inner product of activation row `(b, s)`
  with row `o` of the scaled ternary matrix, plus `bias o` — the function `linear` of the specification.
  The reference contracts the activations' last axis with the matrix's SECOND axis (`bsd,od->bso`), so no
  transpose appears: the left factor of term `k` is `x (b, s, k)`, the right one the matrix at `(o, k)`, and
  the bias, spread over batch and sequence, is read at `o`.
-/
import proofs.«182162_j12455405158913_1_alg».proof.Proof.Gen.ReferenceIdeal.Read
import proofs.«182162_j12455405158913_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.TernaryLinear

/-- The reference's matrix stage is the specification's scaled ternary matrix: the same operations in the
    same order. -/
theorem matrix_eq (w : FVec Ideal S4096x4096 .f32) (scale : FVec Ideal S4096 .f32) :
    val_main_v12 (F := Ideal) w scale = quantized w scale := rfl

/-- The reference's result is `linear` of the activations, the scaled ternary matrix and the bias. -/
theorem result_eq (x : FVec Ideal S8x2048x4096 .f32) (w : FVec Ideal S4096x4096 .f32) (scale bias : FVec Ideal S4096 .f32) :
    val_main_v16 (F := Ideal) x w scale bias = linear x (quantized w scale) bias := by
  funext i
  rw [val_main_v16_apply, val_main_v13_apply, val_main_v15_apply, val_main_v14_apply, matrix_eq]
  have el : ∀ k : Fin 4096, lidx_main_v13 i k = ix3 (i 0) (i 1) k := fun k => funext fun a => by
    match a with | ⟨0, _⟩ => rfl | ⟨1, _⟩ => rfl | ⟨2, _⟩ => rfl
  have er : ∀ k : Fin 4096, ridx_main_v13 i k = ix2 (i 2) k := fun k => funext fun a => by
    match a with | ⟨0, _⟩ => rfl | ⟨1, _⟩ => rfl
  have eb : idx_main_v14 (idx_main_v15 i) = ix1 (i 2) := funext fun a => by
    match a with | ⟨0, _⟩ => rfl
  simp only [el, er, eb]
  rfl

end Cert.ReferenceIdeal.RefValue

end
-- ==== Proof.Payload.lean ====
/-
  What one grid step computes, entry by entry. The step loads a `512 × 4096` block of activations, a
  `4096 × 512` block of the transposed matrix and a `1 × 512` piece of the bias row, multiplies the two
  blocks into a zero accumulator and adds the bias row to every row of the product. Over the extended reals
  the change of format before the product is the identity and the product into zero is the plain sum, so the
  entry at `(p, q)` is `∑ k, xb (p, k) · wb (k, q) + bb (0, q)`.
-/
import proofs.«182162_j12455405158913_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Step

open Cert.KernelIdeal Cert.KernelIdeal.Gen
open Idealize.ShloMosaic Idealize.ShloMosaic.ValueIdx

theorem lhs_row (i : S512x512.Idx) (q : dot_S512x4096_S4096x512_S512x512_1_0_0_1_n_n.contr.Idx) :
    (dot_S512x4096_S4096x512_S512x512_1_0_0_1_n_n.lhsIdx i q 0).val = (i 0).val := by
  unfold DotDims.lhsIdx
  rw [dif_neg (show ¬(0 : Fin S512x4096.rank) ∈ dot_S512x4096_S4096x512_S512x512_1_0_0_1_n_n.lhsBatch by decide), dif_pos (show (0 : Fin S512x4096.rank) ∈ dot_S512x4096_S4096x512_S512x512_1_0_0_1_n_n.lhsNonContracting by decide)]
  rfl
theorem lhs_col (i : S512x512.Idx) (q : dot_S512x4096_S4096x512_S512x512_1_0_0_1_n_n.contr.Idx) :
    (dot_S512x4096_S4096x512_S512x512_1_0_0_1_n_n.lhsIdx i q 1).val = (q ⟨0, by decide⟩).val :=
  dot_S512x4096_S4096x512_S512x512_1_0_0_1_n_n.lhsIdx_val_of_single rfl i q
theorem rhs_row (i : S512x512.Idx) (q : dot_S512x4096_S4096x512_S512x512_1_0_0_1_n_n.contr.Idx) :
    (dot_S512x4096_S4096x512_S512x512_1_0_0_1_n_n.rhsIdx i q 0).val = (q ⟨0, by decide⟩).val :=
  dot_S512x4096_S4096x512_S512x512_1_0_0_1_n_n.rhsIdx_val_of_single rfl i q
theorem rhs_col (i : S512x512.Idx) (q : dot_S512x4096_S4096x512_S512x512_1_0_0_1_n_n.contr.Idx) :
    (dot_S512x4096_S4096x512_S512x512_1_0_0_1_n_n.rhsIdx i q 1).val = (i 1).val := by
  unfold DotDims.rhsIdx
  rw [dif_neg (show ¬(1 : Fin S4096x512.rank) ∈ dot_S512x4096_S4096x512_S512x512_1_0_0_1_n_n.rhsBatch by decide), dif_pos (show (1 : Fin S4096x512.rank) ∈ dot_S512x4096_S4096x512_S512x512_1_0_0_1_n_n.rhsNonContracting by decide)]
  rfl

/-- The product of two blocks into a zero accumulator, at `(p, q)`: the sum over the shared axis. -/
theorem product_entry (l : FVec Ideal S512x4096 .bf16) (r : FVec Ideal S4096x512 .bf16) (p q : Fin 512) :
    matmul (F := Ideal) dot_S512x4096_S4096x512_S512x512_1_0_0_1_n_n none l r (constant S512x512 .f32 0x00000000#32) (ix2 p q)
      = ∑ k : Fin 4096, l (ix2 p k) * r (ix2 k q) := by
  refine (Ideal.matmul_constant_zero_apply dot_S512x4096_S4096x512_S512x512_1_0_0_1_n_n none l r (ix2 p q)).trans ?_
  rw [← Equiv.sum_comp (contrEquiv1 dot_S512x4096_S4096x512_S512x512_1_0_0_1_n_n 4096 rfl rfl).symm]
  refine Finset.sum_congr rfl fun k _ => ?_
  have hk := contrEquiv1_symm_val dot_S512x4096_S4096x512_S512x512_1_0_0_1_n_n 4096 rfl rfl k
  have el : dot_S512x4096_S4096x512_S512x512_1_0_0_1_n_n.lhsIdx (ix2 p q) ((contrEquiv1 dot_S512x4096_S4096x512_S512x512_1_0_0_1_n_n 4096 rfl rfl).symm k) = ix2 p k := funext fun a => Fin.ext (by
    match a with
    | ⟨0, _⟩ => exact lhs_row _ _
    | ⟨1, _⟩ => exact (lhs_col _ _).trans hk)
  have er : dot_S512x4096_S4096x512_S512x512_1_0_0_1_n_n.rhsIdx (ix2 p q) ((contrEquiv1 dot_S512x4096_S4096x512_S512x512_1_0_0_1_n_n 4096 rfl rfl).symm k) = ix2 k q := funext fun a => Fin.ext (by
    match a with
    | ⟨0, _⟩ => exact (rhs_row _ _).trans hk
    | ⟨1, _⟩ => exact rhs_col _ _)
  rw [el, er]

/-- What the step stores at `(p, q)`. -/
theorem stored_entry (xb : Vec Ideal S512x4096 .f32) (wb : Vec Ideal S4096x512 .bf16) (bb : Vec Ideal S1x512 .f32) (p q : Fin 512) :
    k0_pay1 (F := Ideal) xb wb bb (ix2 p q) = (∑ k : Fin 4096, xb (ix2 p k) * wb (ix2 k q)) + bb (ix2 (0 : Fin 1) q) := by
  unfold k0_pay1
  show matmul (F := Ideal) dot_S512x4096_S4096x512_S512x512_1_0_0_1_n_n none
        (truncf .bf16 (shapeCast S512x4096 xb shapeCasts_S512x4096_S512x4096) bitsLt_bf16_f32)
        (shapeCast S4096x512 wb shapeCasts_S4096x512_S4096x512) (constant S512x512 .f32 0x00000000#32) (ix2 p q)
      + broadcastTo S512x512 (shapeCast S1x512 bb shapeCasts_S1x512_S1x512) broadcasts_S1x512_S512x512 (ix2 p q) = _
  rw [product_entry, broadcastTo_1b_ab_apply, shapeCast_self, shapeCast_self, shapeCast_self]
  rfl

end Cert.KernelIdeal.Step

end
-- ==== Proof.Blocks.lean ====
/-
  From grid steps to the whole array. The grid has `32 × 8` steps; step `t` has block row `t / 8` and block
  column `t % 8`, reads rows `512·(t/8) …` of the flattened activations (all 4096 columns), columns
  `512·(t%8) …` of the transposed matrix (all 4096 rows) and of the bias row, and writes the `512 × 512` block
  of the result at that block row and block column. What it writes is that block of `rows` of the three
  arrays (`written_eq`); the `256` blocks tile the `16384 × 4096` result (`covered`), so after the last step
  the result array is `rows` of the three arrays (`result_rows`).
-/
import proofs.«182162_j12455405158913_1_alg».proof.Proof.Gen.KernelIdeal.Frame
import proofs.«182162_j12455405158913_1_alg».proof.Proof.Payload
import proofs.«182162_j12455405158913_1_alg».proof.Proof.Spec

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.TernaryLinear

variable (m : (ℓ : Loc nD τ sig) → Buf (Elt Ideal) ℓ)

theorem zero_offsets : (![0, 0] : Fin 2 → Nat) = fun _ => 0 := funext fun a => by fin_cases a <;> rfl

/-- One step, over plain arrays: if the three loaded blocks are the blocks of `X`, `Wt` and `B` at block row
    `r0` and block column `c0`, the entry the step stores at `j` is `rows X Wt B` at row `512·r0 + j₀` and
    column `512·c0 + j₁`. -/
theorem step_entry (X : SR.Idx → EReal) (Wt : SW.Idx → EReal) (B : SB.Idx → EReal)
    (xb : Vec Ideal S512x4096 .f32) (wb : Vec Ideal S4096x512 .bf16) (bb : Vec Ideal S1x512 .f32)
    (r0 c0 : ℕ) (hr0 : r0 ≤ 31) (hc0 : c0 ≤ 7)
    (hx : ∀ (p : Fin 512) (k : Fin 4096) (h : r0 * 512 + p.val < 16384), xb (ix2 p k) = X (ix2 (⟨r0 * 512 + p.val, h⟩ : Fin 16384) k))
    (hw : ∀ (k : Fin 4096) (q : Fin 512) (h : c0 * 512 + q.val < 4096), wb (ix2 k q) = Wt (ix2 k (⟨c0 * 512 + q.val, h⟩ : Fin 4096)))
    (hb : ∀ (q : Fin 512) (h : c0 * 512 + q.val < 4096), bb (ix2 (0 : Fin 1) q) = B (ix2 (0 : Fin 1) (⟨c0 * 512 + q.val, h⟩ : Fin 4096)))
    (j : S512x512.Idx) (h0 : r0 * 512 + (j 0).val < 16384) (h1 : c0 * 512 + (j 1).val < 4096) :
    k0_pay1 (F := Ideal) xb wb bb j
      = rows X Wt B (ix2 (⟨r0 * 512 + (j 0).val, h0⟩ : Fin 16384) (⟨c0 * 512 + (j 1).val, h1⟩ : Fin 4096)) := by
  obtain ⟨p, q, rfl⟩ : ∃ (p q : Fin 512), j = ix2 p q := ⟨j 0, j 1, eq_ix2 j⟩
  refine (Step.stored_entry xb wb bb p q).trans ?_
  show _ = (∑ k : Fin 4096, X (ix2 (⟨r0 * 512 + p.val, h0⟩ : Fin 16384) k) * Wt (ix2 k (⟨c0 * 512 + q.val, h1⟩ : Fin 4096)))
      + B (ix2 (0 : Fin 1) (⟨c0 * 512 + q.val, h1⟩ : Fin 4096))
  rw [hb q h1]
  refine congrArg (· + B (ix2 (0 : Fin 1) (⟨c0 * 512 + q.val, h1⟩ : Fin 4096))) (Finset.sum_congr rfl fun k _ => ?_)
  rw [hx p k h0, hw k q h1]

/-- The printed block indices over the grid: the activations' block follows the result's block row, the
    matrix's and the bias row's blocks follow its block column, and every other block index is zero. -/
theorem block_indices : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 31 ∧ win0_3.index t (1 : Fin 2) ≤ 7 :=
  (by decide +kernel : ∀ t : Fin grid0.N, _)

/-- Every block row and block column is some step's. -/
theorem block_onto : ∀ (q0 : Fin 32) (q1 : Fin 8), ∃ t : Fin cfg0.N, win0_3.index t = ![q0.val, q1.val] :=
  (by decide +kernel : ∀ (q0 : Fin 32) (q1 : Fin 8), ∃ t : Fin grid0.N, win0_3.index t = ![q0.val, q1.val])

/-- What step `t` writes back is block `t` of `rows` of the three arrays as the call finds them. -/
theorem written_eq (c : Dev nD) (t : Fin cfg0.N) :
    (dats m 0 c).flushed 3 t
      = ((cfg0.win 3).blk t).view.read (Elt Ideal) (rows (V m c main_v15) (V m c main_v14) (V m c main_v16)) := by
  show (cfg0.win 3).cut (grid0.coords t) ((dats m 0 c).after 3 t) = _
  rw [after0_3]
  unfold out0_3
  rw [View.canon_unit_zero zero_offsets]
  simp only [View.ld_unit_zero (S := S512x4096) zero_offsets, View.ld_unit_zero (S := S4096x512) zero_offsets,
    View.ld_unit_zero (S := S1x512) zero_offsets]
  obtain ⟨e0, e1, e2, e3, e4, e5, b0, b1⟩ := block_indices t
  funext j
  have hj0 : (j 0).val < 512 := (j 0).isLt
  have hj1 : (j 1).val < 512 := (j 1).isLt
  refine (step_entry (V m c main_v15) (V m c main_v14) (V m c main_v16) (iblk m c 0 t) (iblk m c 1 t) (iblk m c 2 t)
    (win0_3.index t (0 : Fin 2)) (win0_3.index t (1 : Fin 2)) b0 b1 ?_ ?_ ?_ j (by omega) (by omega)).trans ?_
  · intro p k h
    show V m c main_v15 (((cfg0.win 0).blk t).view.emb (ix2 p k)) = _
    refine congrArg (V m c main_v15) (funext fun a => Fin.ext ?_)
    match a with
    | ⟨0, _⟩ => show win0_0.index t (0 : Fin 2) * 512 + 1 * p.val = win0_3.index t (0 : Fin 2) * 512 + p.val; omega
    | ⟨1, _⟩ => show win0_0.index t (1 : Fin 2) * 4096 + 1 * k.val = k.val; omega
  · intro k q h
    show V m c main_v14 (((cfg0.win 1).blk t).view.emb (ix2 k q)) = _
    refine congrArg (V m c main_v14) (funext fun a => Fin.ext ?_)
    match a with
    | ⟨0, _⟩ => show win0_1.index t (0 : Fin 2) * 4096 + 1 * k.val = k.val; omega
    | ⟨1, _⟩ => show win0_1.index t (1 : Fin 2) * 512 + 1 * q.val = win0_3.index t (1 : Fin 2) * 512 + q.val; omega
  · intro q h
    show V m c main_v16 (((cfg0.win 2).blk t).view.emb (ix2 (0 : Fin 1) q)) = _
    refine congrArg (V m c main_v16) (funext fun a => Fin.ext ?_)
    match a with
    | ⟨0, _⟩ => show win0_2.index t (0 : Fin 2) * 1 + 1 * 0 = 0; omega
    | ⟨1, _⟩ => show win0_2.index t (1 : Fin 2) * 512 + 1 * q.val = win0_3.index t (1 : Fin 2) * 512 + q.val; omega
  · show _ = rows (V m c main_v15) (V m c main_v14) (V m c main_v16) (((cfg0.win 3).blk t).view.emb j)
    refine congrArg (rows (V m c main_v15) (V m c main_v14) (V m c main_v16)) (funext fun a => Fin.ext ?_)
    match a with
    | ⟨0, _⟩ => show win0_3.index t (0 : Fin 2) * 512 + (j 0).val = win0_3.index t (0 : Fin 2) * 512 + 1 * (j 0).val; omega
    | ⟨1, _⟩ => show win0_3.index t (1 : Fin 2) * 512 + (j 1).val = win0_3.index t (1 : Fin 2) * 512 + 1 * (j 1).val; omega

/-- An index of the result is in step `t`'s block iff each coordinate is in the block's range on its axis. -/
theorem mem_block (t : Fin cfg0.N) (i : S16384x4096.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v17).slice (win0_3.rect t)).set ↔ _
  rw [View.set_slice_whole, Rect.mem_set_unit]
  exact Iff.rfl

/-- The blocks tile the result: entry `(r, o)` is in the block at block row `r / 512` and block column `o / 512`. -/
theorem covered (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ := block_onto ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- After the last step the result array is `rows` of the flattened activations, the transposed matrix and
    the bias row. -/
theorem result_rows (c : Dev nD) :
    (dats m 0 c).arrAt 3 cfg0.N = rows (V m c main_v15) (V m c main_v14) (V m c main_v16) :=
  (dats m 0 c).arrAt_eq_of_cover 3 _ (fun t _ => written_eq m c t) covered

end Cert.KernelIdeal.Blocks

end
-- ==== Proof.Around.lean ====
/-
  The lines around the tiled call. Before it the program prepares three arrays from its arguments: the
  activations with batch and sequence flattened into one axis of 16384 rows, the scaled ternary matrix
  TRANSPOSED (after a change of format that is the identity over the extended reals), and the bias as one row.
  After it the `16384 × 4096` result is un-flattened to `8 × 2048 × 4096`.
-/
import proofs.«182162_j12455405158913_1_alg».proof.Proof.Gen.KernelIdeal.Frame
import proofs.«182162_j12455405158913_1_alg».proof.Proof.Spec
import Idealize.ShloMosaic.Lib.StableHlo.Run
import Idealize.ShloMosaic.PureOps.Ideal

noncomputable section

namespace Cert.KernelIdeal.Around

open Cert.KernelIdeal Cert.KernelIdeal.Gen Idealize.ShloMosaic Idealize.ShloMosaic.TcCoe Idealize.SL.Sem Idealize.ShloMosaic.StableHlo
open Idealize.ShloMosaic.Pipeline (Dat)
open Cert.TernaryLinear

variable (m : (ℓ : Loc nD τ sig) → Buf (Elt Ideal) ℓ)

/-- The call's first operand: the activations, flattened. -/
theorem flat_activations (c : Dev nD) :
    (V m c main_v15 : S16384x4096.Idx → EReal)
      = shapeCast S16384x4096 (m ((c : Thread nD τ).loc main_arg0)) shapeCasts_S8x2048x4096_S16384x4096 := by
  show StableHlo.after hostOps0 (fun b => m (c, b)) (Proc.devRef .tc main_v15) = _
  after_results
  rfl

/-- The call's third operand: the bias as one row. -/
theorem bias_row (c : Dev nD) :
    (V m c main_v16 : S1x4096.Idx → EReal)
      = shapeCast S1x4096 (m ((c : Thread nD τ).loc main_arg3)) shapeCasts_S4096_S1x4096 := by
  show StableHlo.after hostOps0 (fun b => m (c, b)) (Proc.devRef .tc main_v16) = _
  after_results
  rfl

/-- The call's second operand: the scaled ternary matrix, transposed. -/
theorem matrix_transposed (c : Dev nD) :
    (V m c main_v14 : S4096x4096.Idx → EReal)
      = transpose S4096x4096 [1, 0] (quantized (m ((c : Thread nD τ).loc main_arg1)) (m ((c : Thread nD τ).loc main_arg2)))
          transposes_S4096x4096_S4096x4096_1_0 := by
  show StableHlo.after hostOps0 (fun b => m (c, b)) (Proc.devRef .tc main_v14) = _
  after_results
  rfl

/-- The program's result: the call's result array, un-flattened. -/
theorem unflattened (c : Dev nD) :
    (Pipeline.afterTail₀ cfgs (dats m) 0 (V0 m) [hostOps1] c main_v18 : S8x2048x4096.Idx → EReal)
      = shapeCast S8x2048x4096 ((dats m 0 c).arrAt 3 cfg0.N) shapeCasts_S16384x4096_S8x2048x4096 := by
  unfold Pipeline.afterTail₀
  show StableHlo.after hostOps1 _ (Proc.devRef .tc main_v18) = _
  after_results
  rw [Pipeline.withArrays_arr spec0 launch0.win.arr_inj c _ _ 3]
  rfl

end Cert.KernelIdeal.Around

end
-- ==== Proof.Whole.lean ====
/-
  The tiled program's run, read as a value: its result is `linear` of the activations, the scaled ternary
  matrix and the bias. The lines before the call flatten, transpose and reshape; the call's result is `rows`
  of those three arrays; the line after the call un-flattens it; and un-flattened `rows` of the flattened
  activations, the transposed matrix and the bias row is `linear` (the specification's `unflatten_rows`).
-/
import proofs.«182162_j12455405158913_1_alg».proof.Proof.Blocks
import proofs.«182162_j12455405158913_1_alg».proof.Proof.Around

noncomputable section

namespace Cert.KernelIdeal.Whole

open Cert.KernelIdeal Cert.KernelIdeal.Gen Idealize.ShloMosaic Idealize.ShloMosaic.TcCoe Idealize.SL.Sem
open Idealize.ShloMosaic.Pipeline (Dat)
open Cert.TernaryLinear

variable (m : (ℓ : Loc nD τ sig) → Buf (Elt Ideal) ℓ) (ρ : Dev nD → PrngReg)

/-- The result buffer after the last line. -/
theorem result_linear (c : Dev nD) :
    (Pipeline.afterTail₀ cfgs (dats m) 0 (V0 m) [hostOps1] c main_v18 : S8x2048x4096.Idx → EReal)
      = linear (m ((c : Thread nD τ).loc main_arg0))
          (quantized (m ((c : Thread nD τ).loc main_arg1)) (m ((c : Thread nD τ).loc main_arg2)))
          (m ((c : Thread nD τ).loc main_arg3)) := by
  rw [Around.unflattened, Blocks.result_rows, Around.flat_activations, Around.matrix_transposed, Around.bias_row]
  exact unflatten_rows _ _ _ _ _ _ _

/-- Every weakly fair execution terminates with the result at `linear` of the arguments, the arguments unchanged. -/
theorem run : θ_run defs (onTc (τ := τ) (main (F := Ideal))) ⟨m, fun _ => 0, ρ⟩ fun r => ∀ c : Dev nD,
      r.2.mem ((c.tc : Thread nD τ).loc main_v18)
        = linear (m ((c.tc : Thread nD τ).loc main_arg0))
            (quantized (m ((c.tc : Thread nD τ).loc main_arg1)) (m ((c.tc : Thread nD τ).loc main_arg2)))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v18 (Pipeline.mem_restRefs_of main_v18 (by decide) (by decide))).trans (result_linear m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.lean ====
/-
  A linear layer with ternary weights, tiled, against its plain form.

  Both programs first turn the weight matrix `w` into a ternary matrix — `sign w · [|w| ≥ 0.7 · mean |w|]` —
  and scale row `o` by `scale o`; both do it with the same operations in the same order, so over the extended
  reals the two matrices are one term (`Cert.TernaryLinear.quantized`). The plain form contracts the
  activations with that matrix and adds the bias: at `(b, s, o)`, `∑ k, x (b, s, k) · q (o, k) + bias o`
  (`Cert.TernaryLinear.linear`). The tiled form flattens batch and sequence into 16384 rows, transposes the
  matrix, computes `512 × 512` blocks of `rows · matrixᵀ + bias` on a `32 × 8` grid — each block the product of
  a `512 × 4096` block of rows with a `4096 × 512` block of columns into a zero accumulator, so no sum is
  split — and un-flattens the result. Over the extended reals the changes of number format are the identity
  and a product into zero is the plain sum, so each entry is the SAME sum of the same products in the same
  order: no law of arithmetic is needed, and the finiteness of the inputs is never used.

  The modules: `Spec` (the function, and that un-flattening the row form gives it back), `RefValue` (the
  plain form computes it), `Payload` (one grid step, entry by entry), `Blocks` (the steps tile the result),
  `Around` (the lines before and after the tiled call), `Whole` (the tiled program's run as a value).
  The three runs' termination and the unchanged arguments come from the generated frames and the generated
  reference run; the idealization rewrote nothing, so there is nothing to preserve.
-/
import proofs.«182162_j12455405158913_1_alg».proof.Defs
import proofs.«182162_j12455405158913_1_alg».proof.Proof.Gen.Kernel
import proofs.«182162_j12455405158913_1_alg».proof.Proof.Gen.Kernel.Skeleton
import proofs.«182162_j12455405158913_1_alg».proof.Proof.Gen.Kernel.Launch
import proofs.«182162_j12455405158913_1_alg».proof.Proof.Gen.Kernel.Points
import proofs.«182162_j12455405158913_1_alg».proof.Proof.Gen.Kernel.Frame
import proofs.«182162_j12455405158913_1_alg».proof.Proof.Gen.KernelIdeal
import proofs.«182162_j12455405158913_1_alg».proof.Proof.Gen.KernelIdeal.Skeleton
import proofs.«182162_j12455405158913_1_alg».proof.Proof.Gen.KernelIdeal.Launch
import proofs.«182162_j12455405158913_1_alg».proof.Proof.Gen.KernelIdeal.Points
import proofs.«182162_j12455405158913_1_alg».proof.Proof.Gen.KernelIdeal.Frame
import proofs.«182162_j12455405158913_1_alg».proof.Proof.Gen.ReferenceIdeal
import proofs.«182162_j12455405158913_1_alg».proof.Proof.Gen.Pre_finite_inputs
import proofs.«182162_j12455405158913_1_alg».proof.Proof.Gen.ReferenceIdeal.Run
import proofs.«182162_j12455405158913_1_alg».proof.Proof.Gen.ReferenceIdeal.Read
import proofs.«182162_j12455405158913_1_alg».proof.Proof.Spec
import proofs.«182162_j12455405158913_1_alg».proof.Proof.RefValue
import proofs.«182162_j12455405158913_1_alg».proof.Proof.Whole
import Idealize.ShloMosaic.Adequacy
import Idealize.ShloMosaic.Init

noncomputable section

namespace Cert.Proof

open Idealize.ShloMosaic Idealize.SL.Sem Cert.TernaryLinear

/-- The word-level program terminates and keeps its arguments. -/
theorem frame_kernel : Cert.frame_Kernel := fun m ρ _ => Cert.Kernel.Gen.frame m ρ

/-- So does the tiled program over the extended reals. -/
theorem frame_tiled : Cert.frame_KernelIdeal := fun m ρ _ => Cert.KernelIdeal.Gen.frame m ρ

/-- So does the plain form: its run, with the result dropped. -/
theorem frame_plain : Cert.frame_ReferenceIdeal := fun m ρ _ =>
  (θ_run Cert.ReferenceIdeal.defs _ _).mono (fun _ h c => (h c).2) (Cert.ReferenceIdeal.Value.run (F := Ideal) m ρ)

/-- Both programs end at `linear x (quantized w scale) bias` of arguments that agree. -/
theorem same_result : Cert.algebraic_KernelIdeal_ReferenceIdeal := by
  intro m ρ m' ρ' _ hagree
  refine ⟨fun c => linear (m ((c.tc : Thread Cert.KernelIdeal.nD Cert.KernelIdeal.τ).loc Cert.KernelIdeal.main_arg0))
      (quantized (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result_eq
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))).trans ?_
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_tiled, frame_plain, trivial, same_result⟩

end Cert.Proof

end
